-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x512x56x56 : Shape := ⟨5, ![8, 4, 512, 56, 56]⟩
abbrev S_ : Shape := ⟨0, ![]⟩

class Facts : Prop where
  bcast_S_S8x4x512x56x56 : S_.BroadcastsInDim S8x4x512x56x56 (![] : Fin 0 → Fin S8x4x512x56x56.rank)
  reducesTo_S8x4x512x56x56_S_d0_1_2_3_4 : S8x4x512x56x56.ReducesTo [0, 1, 2, 3, 4] S_
  h_S_ : 0 < S_.numel

variable [Facts]

def fn {F : FTy → Type} [FloatOps F] (main_arg0 : FVec F S8x4x512x56x56 .f32) : IVec S_ 1 :=
  let main_v0 : FVec F S8x4x512x56x56 .f32 := Host.absf main_arg0
  let main_cst : FVec F S_ .f32 := constant S_ .f32 0x7F800000#32
  let main_v1 : FVec F S8x4x512x56x56 .f32 := broadcastInDim S8x4x512x56x56 ![] bcast_S_S8x4x512x56x56 main_cst
  let main_v2 : IVec S8x4x512x56x56 1 := cmpf .olt main_v0 main_v1
  let main_c : IVec S_ 1 := constantI S_ 1 1#1
  let main_v3 : IVec S_ 1 := (fun x v => Host.reduce IntOp.andi x v reducesTo_S8x4x512x56x56_S_d0_1_2_3_4 h_S_) main_v2 main_c
  main_v3
-- ==== Kernel.lean ====
abbrev S8x4x512x56x56 : Shape := ⟨5, ![8, 4, 512, 56, 56]⟩
abbrev S4x56x56 : Shape := ⟨3, ![4, 56, 56]⟩
abbrev S8x1x512x8x56 : Shape := ⟨5, ![8, 1, 512, 8, 56]⟩
abbrev S1x8x56 : Shape := ⟨3, ![1, 8, 56]⟩
abbrev S512x8x56 : Shape := ⟨3, ![512, 8, 56]⟩
abbrev S8x56 : Shape := ⟨2, ![8, 56]⟩
abbrev S1x1x512x8x56 : Shape := ⟨5, ![1, 1, 512, 8, 56]⟩

abbrev nBuf : Space → Nat
  | .hbm => 2
  | .vmem => 4
  | .smem => 0
  | _ => 0

abbrev bufTy : (tb : Table) → Fin (tcTables nBuf tb) → BufTy
  | .hbm, ⟨0, _⟩ => ⟨S8x4x512x56x56, .f32⟩
  | .hbm, ⟨1, _⟩ => ⟨S4x56x56, .f32⟩
  | .local _ .vmem, ⟨0, _⟩ => ⟨S8x1x512x8x56, .f32⟩
  | .local _ .vmem, ⟨1, _⟩ => ⟨S8x1x512x8x56, .f32⟩
  | .local _ .vmem, ⟨2, _⟩ => ⟨S1x8x56, .f32⟩
  | .local _ .vmem, ⟨3, _⟩ => ⟨S1x8x56, .f32⟩
  | _, _ => ⟨S8x4x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 7], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x512x8x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S8x1x512x8x56_S1x1x512x8x56_0_0_0_0_0 : ∀ a, (![0, 0, 0, 0, 0] : Fin 5 → Nat) a + S1x1x512x8x56.size a ≤ S8x1x512x8x56.size a
  h_S1x1x512x8x56 : 0 < S1x1x512x8x56.numel
  shapeCasts_S1x1x512x8x56_S512x8x56 : S1x1x512x8x56.ShapeCasts S512x8x56
  reduces_S512x8x56_S8x56 : S512x8x56.Reduces [0] S8x56
  shapeCasts_S8x56_S1x8x56 : S8x56.ShapeCasts S1x8x56
  broadcasts_S1x8x56_S512x8x56 : S1x8x56.Broadcasts S512x8x56
  inb_S8x1x512x8x56_S1x1x512x8x56_1_0_0_0_0 : ∀ a, (![1, 0, 0, 0, 0] : Fin 5 → Nat) a + S1x1x512x8x56.size a ≤ S8x1x512x8x56.size a
  inb_S8x1x512x8x56_S1x1x512x8x56_2_0_0_0_0 : ∀ a, (![2, 0, 0, 0, 0] : Fin 5 → Nat) a + S1x1x512x8x56.size a ≤ S8x1x512x8x56.size a
  inb_S8x1x512x8x56_S1x1x512x8x56_3_0_0_0_0 : ∀ a, (![3, 0, 0, 0, 0] : Fin 5 → Nat) a + S1x1x512x8x56.size a ≤ S8x1x512x8x56.size a
  inb_S8x1x512x8x56_S1x1x512x8x56_4_0_0_0_0 : ∀ a, (![4, 0, 0, 0, 0] : Fin 5 → Nat) a + S1x1x512x8x56.size a ≤ S8x1x512x8x56.size a
  inb_S8x1x512x8x56_S1x1x512x8x56_5_0_0_0_0 : ∀ a, (![5, 0, 0, 0, 0] : Fin 5 → Nat) a + S1x1x512x8x56.size a ≤ S8x1x512x8x56.size a
  inb_S8x1x512x8x56_S1x1x512x8x56_6_0_0_0_0 : ∀ a, (![6, 0, 0, 0, 0] : Fin 5 → Nat) a + S1x1x512x8x56.size a ≤ S8x1x512x8x56.size a
  inb_S8x1x512x8x56_S1x1x512x8x56_7_0_0_0_0 : ∀ a, (![7, 0, 0, 0, 0] : Fin 5 → Nat) a + S1x1x512x8x56.size a ≤ S8x1x512x8x56.size a
  inb_S1x8x56_S1x8x56_0_0_0 : ∀ a, (![0, 0, 0] : Fin 3 → Nat) a + S1x8x56.size a ≤ S1x8x56.size a
  h_S1x8x56 : 0 < S1x8x56.numel
  shapeCasts_S1x8x56_S8x56 : S1x8x56.ShapeCasts S8x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x512x8x56.size a ≤ S8x4x512x56x56.size a
  hwx0_0 : ∀ i : grid0.Coords, EltTy.bits .f32 = 32 ∨ (Rect.block (s := S8x4x512x56x56) S8x1x512x8x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x56.size a ≤ S4x56x56.size a
  hwx0_1 : ∀ i : grid0.Coords, EltTy.bits .f32 = 32 ∨ (Rect.block (s := S4x56x56) S1x8x56.size (cc0_transform_1 i) (hinb0_1 i)).WholeWords (EltTy.packing .f32)

variable [Facts₀]

abbrev win0_0 : Pipeline.Window sig grid0 :=
  Pipeline.Window.ofSpec (Memref.whole main_arg0) S8x1x512x8x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x56.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x4x512x56x56 : Shape := ⟨5, ![8, 4, 512, 56, 56]⟩
abbrev S_ : Shape := ⟨0, ![]⟩
abbrev S8x4x56x56 : Shape := ⟨4, ![8, 4, 56, 56]⟩
abbrev S8x4x1x56x56 : Shape := ⟨5, ![8, 4, 1, 56, 56]⟩
abbrev S4x512x56x56 : Shape := ⟨4, ![4, 512, 56, 56]⟩
abbrev S4x56x56 : Shape := ⟨3, ![4, 56, 56]⟩

abbrev nBuf : Space → Nat
  | .hbm => 25
  | .vmem => 0
  | .smem => 0
  | _ => 0

abbrev bufTy : (tb : Table) → Fin (tcTables nBuf tb) → BufTy
  | .hbm, ⟨0, _⟩ => ⟨S8x4x512x56x56, .f32⟩
  | .hbm, ⟨1, _⟩ => ⟨S8x4x512x56x56, .f32⟩
  | .hbm, ⟨2, _⟩ => ⟨S_, .f32⟩
  | .hbm, ⟨3, _⟩ => ⟨S8x4x56x56, .f32⟩
  | .hbm, ⟨4, _⟩ => ⟨S8x4x1x56x56, .f32⟩
  | .hbm, ⟨5, _⟩ => ⟨S8x4x1x56x56, .f32⟩
  | .hbm, ⟨6, _⟩ => ⟨S_, .f32⟩
  | .hbm, ⟨7, _⟩ => ⟨S8x4x1x56x56, .f32⟩
  | .hbm, ⟨8, _⟩ => ⟨S8x4x1x56x56, .f32⟩
  | .hbm, ⟨9, _⟩ => ⟨S8x4x512x56x56, .f32⟩
  | .hbm, ⟨10, _⟩ => ⟨S8x4x512x56x56, .f32⟩
  | .hbm, ⟨11, _⟩ => ⟨S_, .f32⟩
  | .hbm, ⟨12, _⟩ => ⟨S4x512x56x56, .f32⟩
  | .hbm, ⟨13, _⟩ => ⟨S4x512x56x56, .f32⟩
  | .hbm, ⟨14, _⟩ => ⟨S_, .f32⟩
  | .hbm, ⟨15, _⟩ => ⟨S4x56x56, .f32⟩
  | .hbm, ⟨16, _⟩ => ⟨S8x4x512x56x56, .f32⟩
  | .hbm, ⟨17, _⟩ => ⟨S_, .f32⟩
  | .hbm, ⟨18, _⟩ => ⟨S8x4x56x56, .f32⟩
  | .hbm, ⟨19, _⟩ => ⟨S_, .f32⟩
  | .hbm, ⟨20, _⟩ => ⟨S4x56x56, .f32⟩
  | .hbm, ⟨21, _⟩ => ⟨S4x56x56, .f32⟩
  | .hbm, ⟨22, _⟩ => ⟨S_, .f32⟩
  | .hbm, ⟨23, _⟩ => ⟨S4x56x56, .f32⟩
  | .hbm, ⟨24, _⟩ => ⟨S4x56x56, .f32⟩
  | _, _ => ⟨S8x4x512x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_cst_5 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  reducesTo_S8x4x512x56x56_S8x4x56x56_d2 : S8x4x512x56x56.ReducesTo [2] S8x4x56x56
  h_S_ : 0 < S_.numel
  bcast_S8x4x56x56_S8x4x1x56x56_0_1_3_4 : S8x4x56x56.BroadcastsInDim S8x4x1x56x56 (![0, 1, 3, 4] : Fin 4 → Fin S8x4x1x56x56.rank)
  bcast_S_S8x4x1x56x56 : S_.BroadcastsInDim S8x4x1x56x56 (![] : Fin 0 → Fin S8x4x1x56x56.rank)
  bcast_S8x4x1x56x56_S8x4x512x56x56_0_1_2_3_4 : S8x4x1x56x56.BroadcastsInDim S8x4x512x56x56 (![0, 1, 2, 3, 4] : Fin 5 → Fin S8x4x512x56x56.rank)
  reducesTo_S8x4x512x56x56_S4x512x56x56_d0 : S8x4x512x56x56.ReducesTo [0] S4x512x56x56
  reducesTo_S4x512x56x56_S4x56x56_d1 : S4x512x56x56.ReducesTo [1] S4x56x56
  reducesTo_S8x4x56x56_S4x56x56_d0 : S8x4x56x56.ReducesTo [0] S4x56x56
  bcast_S_S4x56x56 : S_.BroadcastsInDim S4x56x56 (![] : Fin 0 → Fin S4x56x56.rank)

variable [Facts₀]

class Facts : Prop extends Facts₀ where

variable [Facts]
-- ==== Proof.PairCosine.lean ====
/-
  The mathematics both programs compute, stated once with no program in sight.

  For one batch entry and one pixel, eight clips each give a vector over 512 channels. Each vector is divided by its
  Euclidean norm, the norm held above a small floor. With `u n` the eight scaled vectors, the sum over all ordered pairs
  `n ≠ n'` of the inner products `u n · u n'` is `‖Σ n, u n‖² − Σ n, ‖u n‖²`; divided by the number of pairs, 8 · 7 = 56, it
  is the mean pairwise cosine similarity of the clips. Everything is read on the extended reals, where addition is
  commutative and associative, so the sums below say nothing of an order.
-/
import Idealize.ShloMosaic.PureOps.Ideal
import Idealize.ShloMosaic.PureOps.Ideal.Laws
import Idealize.ShloMosaic.Lib.ValueIdx

noncomputable section

namespace Cert.PairCosine

open Idealize.ShloMosaic Idealize.ShloMosaic.ValueIdx

/-- The floor under every norm: the binary32 value nearest `1e-8`, read as an extended real. -/
abbrev normFloor : EReal := Ideal.ofBits .f32 0x322BCC77#32

/-- The number of ordered pairs of distinct clips, `8 · 7 = 56`, as the binary32 word of `56.0`. -/
abbrev pairCount : EReal := Ideal.ofBits .f32 0x42600000#32

/-- A channel vector's Euclidean norm, held above the floor. -/
def flooredNorm (g : Fin 512 → EReal) : EReal := max (Ideal.sqrt (∑ c : Fin 512, g c * g c)) normFloor

/-- A channel vector divided by its floored norm, at channel `c`. -/
def direction (g : Fin 512 → EReal) (c : Fin 512) : EReal := Ideal.div (g c) (flooredNorm g)

/-- `‖Σ n, u n‖² − Σ n, ‖u n‖²` over the directions `u n` of eight channel vectors `f n`, divided by the number of
    ordered pairs. -/
def meanPairCosine (f : Fin 8 → Fin 512 → EReal) : EReal :=
  Ideal.div ((∑ c : Fin 512, (∑ n : Fin 8, direction (f n) c) * (∑ n : Fin 8, direction (f n) c))
      - ∑ n : Fin 8, ∑ c : Fin 512, direction (f n) c * direction (f n) c) pairCount

/-- The features at one batch entry and one pixel: clip by channel. -/
def pixel (x : (⟨5, ![8, 4, 512, 56, 56]⟩ : Shape).Idx → EReal) (b : Fin 4) (h w : Fin 56) : Fin 8 → Fin 512 → EReal :=
  fun n c => x (ix5 n b c h w)

/-- The whole result: at batch entry `b` and pixel `(h, w)`, the mean pairwise cosine of that pixel's eight clips. -/
def result (x : (⟨5, ![8, 4, 512, 56, 56]⟩ : Shape).Idx → EReal) : (⟨3, ![4, 56, 56]⟩ : Shape).Idx → EReal :=
  fun i => meanPairCosine (pixel x (i 0) (i 1) (i 2))

theorem result_apply (x : (⟨5, ![8, 4, 512, 56, 56]⟩ : Shape).Idx → EReal) (b : Fin 4) (h w : Fin 56) :
    result x (ix3 b h w) = meanPairCosine (pixel x b h w) := rfl

/-- A sum of eight terms gathered one at a time from zero, as the eight-term sum. -/
theorem gathered_eq_sum {M : Type*} [AddCommMonoid M] (g : Fin 8 → M) :
    0 + g 0 + g 1 + g 2 + g 3 + g 4 + g 5 + g 6 + g 7 = ∑ n : Fin 8, g n := by
  rw [zero_add, Fin.sum_univ_eight]

end Cert.PairCosine

end
-- ==== Proof.RefValue.lean ====
/-
  The reference program's result, read one stage at a time at an index, is the mean pairwise cosine of each pixel's
  eight clips (`Cert.PairCosine.result`): its sums over the channel axis and over the clip axis are the sums of the
  specification, its square root, maximum and quotients the extended-real ones, and each sum's initial value is zero.
-/
import proofs.«105444_j15642270892813_1_alg».proof.Proof.Gen.ReferenceIdeal.Read
import proofs.«105444_j15642270892813_1_alg».proof.Proof.PairCosine

noncomputable section

namespace Cert.ReferenceIdeal.RefValue

open Cert.ReferenceIdeal Cert.ReferenceIdeal.Gen Cert.ReferenceIdeal.Read Cert.PairCosine
open Idealize.ShloMosaic Idealize.ShloMosaic.ValueIdx

variable (x : (⟨S8x4x512x56x56, .f32⟩ : BufTy).Contents (Elt Ideal))

/-- The squares summed over the channels: clip `n`, batch entry `b`, pixel `(h, w)`. -/
theorem sumsq_apply (n : Fin 8) (b : Fin 4) (h w : Fin 56) :
    val_main_v1 (F := Ideal) x (ix4 n b h w) = ∑ c : Fin 512, pixel x b h w n c * pixel x b h w n c := by
  rw [val_main_v1_apply, val_main_cst_apply]
  simp only [Ideal.ofBits_def, Ideal.ofBits_zero_f32, zero_add, val_main_v0_apply, Ideal.mulf_def]
  refine Finset.sum_congr rfl fun k _ => ?_
  rw [show idx_main_v1 (ix4 n b h w) k = ix5 n b k h w from
    funext fun a => by match a with | ⟨0, _⟩ => rfl | ⟨1, _⟩ => rfl | ⟨2, _⟩ => rfl | ⟨3, _⟩ => rfl | ⟨4, _⟩ => rfl]
  rfl

/-- The floored norm, kept with a unit channel axis. -/
theorem norm_apply (n : Fin 8) (b : Fin 4) (u : Fin 1) (h w : Fin 56) :
    val_main_v5 (F := Ideal) x (ix5 n b u h w) = flooredNorm (pixel x b h w n) := by
  rw [val_main_v5_apply, val_main_v3_apply, val_main_v4_apply, val_main_cst_0_apply, val_main_v2_apply,
    show idx_main_v2 (ix5 n b u h w) = ix4 n b h w from
      funext fun a => by match a with | ⟨0, _⟩ => rfl | ⟨1, _⟩ => rfl | ⟨2, _⟩ => rfl | ⟨3, _⟩ => rfl,
    sumsq_apply]
  rfl

/-- Each feature divided by its clip's floored norm. -/
theorem direction_apply (n : Fin 8) (b : Fin 4) (c : Fin 512) (h w : Fin 56) :
    val_main_v7 (F := Ideal) x (ix5 n b c h w) = direction (pixel x b h w n) c := by
  rw [val_main_v7_apply, val_main_v6_apply,
    show idx_main_v6 (ix5 n b c h w) = ix5 n b (⟨0, Nat.one_pos⟩ : Fin 1) h w from
      funext fun a => by match a with | ⟨0, _⟩ => rfl | ⟨1, _⟩ => rfl | ⟨2, _⟩ => rfl | ⟨3, _⟩ => rfl | ⟨4, _⟩ => rfl,
    norm_apply]
  rfl

/-- The directions summed over the eight clips. -/
theorem sumdir_apply (b : Fin 4) (c : Fin 512) (h w : Fin 56) :
    val_main_v8 (F := Ideal) x (ix4 b c h w) = ∑ n : Fin 8, direction (pixel x b h w n) c := by
  rw [val_main_v8_apply, val_main_cst_1_apply]
  simp only [Ideal.ofBits_def, Ideal.ofBits_zero_f32, zero_add]
  refine Finset.sum_congr rfl fun k _ => ?_
  rw [show idx_main_v8 (ix4 b c h w) k = ix5 k b c h w from
    funext fun a => by match a with | ⟨0, _⟩ => rfl | ⟨1, _⟩ => rfl | ⟨2, _⟩ => rfl | ⟨3, _⟩ => rfl | ⟨4, _⟩ => rfl,
    direction_apply]

/-- The squared norm of the summed directions. -/
theorem total_apply (b : Fin 4) (h w : Fin 56) :
    val_main_v10 (F := Ideal) x (ix3 b h w)
      = ∑ c : Fin 512, (∑ n : Fin 8, direction (pixel x b h w n) c) * (∑ n : Fin 8, direction (pixel x b h w n) c) := by
  rw [val_main_v10_apply, val_main_cst_2_apply]
  simp only [Ideal.ofBits_def, Ideal.ofBits_zero_f32, zero_add, val_main_v9_apply, Ideal.mulf_def]
  refine Finset.sum_congr rfl fun k _ => ?_
  rw [show idx_main_v10 (ix3 b h w) k = ix4 b k h w from
    funext fun a => by match a with | ⟨0, _⟩ => rfl | ⟨1, _⟩ => rfl | ⟨2, _⟩ => rfl | ⟨3, _⟩ => rfl,
    sumdir_apply]

/-- One direction's squared norm. -/
theorem dirsq_apply (n : Fin 8) (b : Fin 4) (h w : Fin 56) :
    val_main_v12 (F := Ideal) x (ix4 n b h w)
      = ∑ c : Fin 512, direction (pixel x b h w n) c * direction (pixel x b h w n) c := by
  rw [val_main_v12_apply, val_main_cst_3_apply]
  simp only [Ideal.ofBits_def, Ideal.ofBits_zero_f32, zero_add, val_main_v11_apply, Ideal.mulf_def]
  refine Finset.sum_congr rfl fun k _ => ?_
  rw [show idx_main_v12 (ix4 n b h w) k = ix5 n b k h w from
    funext fun a => by match a with | ⟨0, _⟩ => rfl | ⟨1, _⟩ => rfl | ⟨2, _⟩ => rfl | ⟨3, _⟩ => rfl | ⟨4, _⟩ => rfl,
    direction_apply]

/-- The eight squared norms summed: the diagonal terms. -/
theorem diag_apply (b : Fin 4) (h w : Fin 56) :
    val_main_v13 (F := Ideal) x (ix3 b h w)
      = ∑ n : Fin 8, ∑ c : Fin 512, direction (pixel x b h w n) c * direction (pixel x b h w n) c := by
  rw [val_main_v13_apply, val_main_cst_4_apply]
  simp only [Ideal.ofBits_def, Ideal.ofBits_zero_f32, zero_add]
  refine Finset.sum_congr rfl fun k _ => ?_
  rw [show idx_main_v13 (ix3 b h w) k = ix4 k b h w from
    funext fun a => by match a with | ⟨0, _⟩ => rfl | ⟨1, _⟩ => rfl | ⟨2, _⟩ => rfl | ⟨3, _⟩ => rfl,
    dirsq_apply]

/-- The reference's last stage is the specification's result. -/
theorem reference_eq : val_main_v16 (F := Ideal) x = result x := by
  funext i
  obtain ⟨b, h, w, rfl⟩ : ∃ (b : Fin 4) (h w : Fin 56), i = ix3 b h w := ⟨i 0, i 1, i 2, eq_ix3 i⟩
  rw [val_main_v16_apply, val_main_v14_apply, val_main_v15_apply, val_main_cst_5_apply, total_apply, diag_apply,
    result_apply]
  rfl

end Cert.ReferenceIdeal.RefValue

end
-- ==== Proof.Body.lean ====
/-
  What the kernel body stores at one grid point, as mathematics. The body loads the eight clips of its block one
  slab (channel × row × lane) at a time, divides each slab by its pixels' floored norms, gathers the eight scaled
  slabs and their squared norms one at a time from zero, and stores `(‖Σ u‖² − Σ ‖u‖²) / 56`. Read at a row and a
  lane on the extended reals this is the mean pairwise cosine of the pixel's eight clips.
-/
import proofs.«105444_j15642270892813_1_alg».proof.Proof.Gen.KernelIdeal.Skeleton
import proofs.«105444_j15642270892813_1_alg».proof.Proof.PairCosine
import Idealize.ShloMosaic.Lib.Pipeline.FrameBody
import Idealize.ShloMosaic.Lib.Pipeline.Value
import Idealize.ShloMosaic.Lib.ValueLayout

noncomputable section

namespace Cert.KernelIdeal.Body

open Cert.KernelIdeal Cert.KernelIdeal.Gen Cert.PairCosine
open Idealize.ShloMosaic Idealize.ShloMosaic.ValueIdx

section anyFloat

variable {F : FTy → Type} [FloatOps F]

/-- One clip's slab, each entry divided by its pixel's floored norm over the channels. -/
def scaled (v : Vec F S1x1x512x8x56 .f32) : FVec F S512x8x56 .f32 := k0_pay2 v

/-- A slab's squares summed over the channels: one number per row and lane. -/
def chanSq (u : FVec F S512x8x56 .f32) : FVec F S8x56 .f32 :=
  multiReduction .add [0] S8x56 (mulf u u) 0x00000000#32 reduces_S512x8x56_S8x56 (.inl rfl) rfl

/-- The eight scaled slabs gathered one at a time from zero. -/
def gathered (L : Fin 8 → Vec F S1x1x512x8x56 .f32) : FVec F S512x8x56 .f32 :=
  addf (addf (addf (addf (addf (addf (addf (addf (broadcast S512x8x56 (Scalar.ofBits .f32 0x00000000#32))
    (scaled (L 0))) (scaled (L 1))) (scaled (L 2))) (scaled (L 3))) (scaled (L 4))) (scaled (L 5))) (scaled (L 6))) (scaled (L 7))

/-- Their squared norms gathered likewise. -/
def gatheredSq (L : Fin 8 → Vec F S1x1x512x8x56 .f32) : FVec F S8x56 .f32 :=
  addf (addf (addf (addf (addf (addf (addf (addf (broadcast S8x56 (Scalar.ofBits .f32 0x00000000#32))
    (chanSq (scaled (L 0)))) (chanSq (scaled (L 1)))) (chanSq (scaled (L 2)))) (chanSq (scaled (L 3)))) (chanSq (scaled (L 4))))
    (chanSq (scaled (L 5)))) (chanSq (scaled (L 6)))) (chanSq (scaled (L 7)))

/-- What the body stores, over the eight loaded slabs. -/
def stored (L : Fin 8 → Vec F S1x1x512x8x56 .f32) : FVec F S1x8x56 .f32 :=
  shapeCast S1x8x56
    (divf (subf (chanSq (gathered L)) (gatheredSq L)) (broadcast S8x56 (Scalar.ofBits .f32 0x42600000#32)))
    shapeCasts_S8x56_S1x8x56

/-- The body's one stored value, composed from its named pieces, is `stored` of the eight loads: every piece unfolds
    to the same operations in the same order. -/
theorem payload_eq (L : Fin 8 → Vec F S1x1x512x8x56 .f32) :
    k0_pay1 (k0_pay15 (k0_pay11 (k0_pay4 (L 0) (L 1)) (k0_pay6 (L 2)) (L 3) (L 4)) (L 5) (L 6))
      (k0_pay16 (k0_pay9 (k0_pay5 (L 0) (L 1)) (k0_pay6 (L 2)) (L 3)) (k0_pay12 (L 4)) (L 5) (L 6))
      (k0_pay17 (L 7)) (k0_pay18 (L 7)) (Scalar.ofBits .f32 0x322BCC77#32) = stored L := rfl

end anyFloat

section ideal

/-- A slab read at (channel, row, lane): the loaded block's two unit axes put back. -/
theorem slab_cast_apply {α : Type} (v : S1x1x512x8x56.Idx → α) (c : Fin 512) (r : Fin 8) (w : Fin 56) :
    shapeCast S512x8x56 v shapeCasts_S1x1x512x8x56_S512x8x56 (ix3 c r w) = v (ix5 (0 : Fin 1) (0 : Fin 1) c r w) :=
  shapeCast_apply v _ _ _ (by
    rw [Shape.rowMajor_val_five, Shape.rowMajor_val_three]
    show (((0 * 1 + 0) * 512 + c.val) * 8 + r.val) * 56 + w.val = (c.val * 8 + r.val) * 56 + w.val
    simp only [Nat.zero_mul, Nat.zero_add])

/-- One value per row and lane spread over the channels reads, at any channel, that row's and lane's value. -/
theorem rows_bcast_apply {α : Type} (v : S1x8x56.Idx → α) (c : Fin 512) (r : Fin 8) (w : Fin 56) :
    broadcastTo S512x8x56 v broadcasts_S1x8x56_S512x8x56 (ix3 c r w) = v (ix3 (0 : Fin 1) r w) := by
  refine broadcastTo_apply v _ (ix3 c r w) (ix3 (0 : Fin 1) r w) fun a => ?_
  match a with
  | ⟨0, _⟩ => show 0 = if (1 : Nat) = 1 then 0 else c.val; rw [if_pos rfl]
  | ⟨1, _⟩ => show r.val = if (8 : Nat) = 1 then 0 else r.val; rw [if_neg (by decide)]
  | ⟨2, _⟩ => show w.val = if (56 : Nat) = 1 then 0 else w.val; rw [if_neg (by decide)]

/-- A slab's squares summed over the channels, at a row and a lane. -/
theorem chanSq_apply (u : FVec Ideal S512x8x56 .f32) (r : Fin 8) (w : Fin 56) :
    chanSq (F := Ideal) u (ix2 r w) = ∑ k : Fin 512, u (ix3 k r w) * u (ix3 k r w) := by
  unfold chanSq
  refine (Ideal.multiReduction_add_single (mulf u u) 0x00000000#32 reduces_S512x8x56_S8x56 (.inl rfl) rfl (ix2 r w)).trans ?_
  refine Finset.sum_congr rfl fun k _ => ?_
  rw [show reduces_S512x8x56_S8x56.lift (ix2 r w) k = ix3 k r w from
    funext fun a => Fin.ext (by match a with | ⟨0, _⟩ => rfl | ⟨1, _⟩ => rfl | ⟨2, _⟩ => rfl)]
  rfl

/-- A scaled slab at (channel, row, lane) is the direction of that pixel's channel vector. -/
theorem scaled_apply (v : Vec Ideal S1x1x512x8x56 .f32) (c : Fin 512) (r : Fin 8) (w : Fin 56) :
    scaled (F := Ideal) v (ix3 c r w) = direction (fun k => v (ix5 (0 : Fin 1) (0 : Fin 1) k r w)) c := by
  unfold scaled k0_pay2
  dsimp only
  rw [divf_apply, slab_cast_apply, rows_bcast_apply, shapeCast_ab_1ab_apply, maximumf_apply, broadcast_apply]
  show Ideal.div _ (max (Ideal.sqrt (chanSq (F := Ideal) (shapeCast S512x8x56 v shapeCasts_S1x1x512x8x56_S512x8x56) (ix2 r w))) normFloor) = _
  rw [chanSq_apply]
  simp only [slab_cast_apply]
  rfl

/-- The gathered slabs at (channel, row, lane): the eight directions summed. -/
theorem gathered_apply (L : Fin 8 → Vec Ideal S1x1x512x8x56 .f32) (c : Fin 512) (r : Fin 8) (w : Fin 56) :
    gathered (F := Ideal) L (ix3 c r w)
      = ∑ n : Fin 8, direction (fun k => L n (ix5 (0 : Fin 1) (0 : Fin 1) k r w)) c := by
  unfold gathered
  simp only [addf_apply, broadcast_apply, scaled_apply]
  rw [show (Scalar.ofBits .f32 0x00000000#32 : Ideal .f32) = 0 from Ideal.ofBits_zero_f32]
  exact gathered_eq_sum (fun n => direction (fun k => L n (ix5 (0 : Fin 1) (0 : Fin 1) k r w)) c)

/-- The gathered squared norms at a row and a lane: the eight directions' squared norms summed. -/
theorem gatheredSq_apply (L : Fin 8 → Vec Ideal S1x1x512x8x56 .f32) (r : Fin 8) (w : Fin 56) :
    gatheredSq (F := Ideal) L (ix2 r w)
      = ∑ n : Fin 8, ∑ c : Fin 512, direction (fun k => L n (ix5 (0 : Fin 1) (0 : Fin 1) k r w)) c
          * direction (fun k => L n (ix5 (0 : Fin 1) (0 : Fin 1) k r w)) c := by
  unfold gatheredSq
  simp only [addf_apply, broadcast_apply, chanSq_apply, scaled_apply]
  rw [show (Scalar.ofBits .f32 0x00000000#32 : Ideal .f32) = 0 from Ideal.ofBits_zero_f32]
  exact gathered_eq_sum (fun n => ∑ c : Fin 512, direction (fun k => L n (ix5 (0 : Fin 1) (0 : Fin 1) k r w)) c
          * direction (fun k => L n (ix5 (0 : Fin 1) (0 : Fin 1) k r w)) c)

/-- What the body stores, at a row and a lane: the mean pairwise cosine of that pixel's eight loaded clips. -/
theorem stored_apply (L : Fin 8 → Vec Ideal S1x1x512x8x56 .f32) (u : Fin 1) (r : Fin 8) (w : Fin 56) :
    stored (F := Ideal) L (ix3 u r w) = meanPairCosine fun n k => L n (ix5 (0 : Fin 1) (0 : Fin 1) k r w) := by
  unfold stored
  rw [shapeCast_ab_1ab_apply, divf_apply, subf_apply, broadcast_apply, chanSq_apply, gatheredSq_apply]
  simp only [gathered_apply]
  rfl

end ideal

end Cert.KernelIdeal.Body

end
-- ==== Proof.Tiles.lean ====
/-
  From grid points to the whole array. Grid point `(b, q)` stages the eight clips' features of batch entry `b` on rows
  `8 q … 8 q + 7` and writes back rows `8 q … 8 q + 7` of batch entry `b` of the result. What it writes is, pixel by
  pixel, the mean pairwise cosine of that pixel's eight clips, so it is that block of the one whole-array function
  `Cert.PairCosine.result`; the 4 × 7 blocks tile the 4 × 56 × 56 result, so after the run the array is that function.
-/
import proofs.«105444_j15642270892813_1_alg».proof.Proof.Gen.KernelIdeal.Value
import proofs.«105444_j15642270892813_1_alg».proof.Proof.Body

set_option maxRecDepth 16384

noncomputable section

namespace Cert.KernelIdeal.Tiles

open Cert.KernelIdeal Cert.KernelIdeal.Gen Cert.KernelIdeal.Body Cert.PairCosine
open Idealize.ShloMosaic Idealize.ShloMosaic.TcCoe Idealize.SL.Sem Idealize.ShloMosaic.ValueIdx
open Idealize.ShloMosaic.Pipeline (Dat)

theorem zeros3 : (![0, 0, 0] : Fin 3 → Nat) = fun _ => 0 := funext fun a => by fin_cases a <;> rfl

/-- Clip `n`'s slab inside a staged block: every channel, row and lane of that clip. -/
abbrev slab (n : Fin 8) : Rect S8x1x512x8x56 :=
  Rect.unit (s := S8x1x512x8x56) ![n.val, 0, 0, 0, 0] S1x1x512x8x56.size fun a => by
    match a with
    | ⟨0, _⟩ => show n.val + 1 ≤ 8; omega
    | ⟨1, _⟩ => show 0 + 1 ≤ 1; omega
    | ⟨2, _⟩ => show 0 + 512 ≤ 512; omega
    | ⟨3, _⟩ => show 0 + 8 ≤ 8; omega
    | ⟨4, _⟩ => show 0 + 56 ≤ 56; omega

/-- A load through clip `n`'s slab reads the block at clip `n`. -/
theorem ld_slab (x0 : Vec Ideal S8x1x512x8x56 .f32) (n : Fin 8) (k : Fin 512) (r : Fin 8) (w : Fin 56) :
    View.ld x0 (slab n) (ix5 (0 : Fin 1) (0 : Fin 1) k r w) = x0 (ix5 n (0 : Fin 1) k r w) := by
  show x0 ((slab n).idx (ix5 (0 : Fin 1) (0 : Fin 1) k r w)) = _
  refine congrArg x0 (funext fun a => Fin.ext ?_)
  match a with
  | ⟨0, _⟩ => show n.val + 1 * 0 = n.val; omega
  | ⟨1, _⟩ => rfl
  | ⟨2, _⟩ => show 0 + 1 * k.val = k.val; omega
  | ⟨3, _⟩ => show 0 + 1 * r.val = r.val; omega
  | ⟨4, _⟩ => show 0 + 1 * w.val = w.val; omega

/-- What the body leaves in the result's staging buffer is `stored` of the block's eight slabs. -/
theorem out_eq (x0 : Vec Ideal S8x1x512x8x56 .f32) : out0_1 x0 = stored fun n => View.ld x0 (slab n) := by
  unfold out0_1
  rw [View.canon_unit_zero zeros3]
  exact payload_eq (fun n => View.ld x0 (slab n))

/-- One stored entry against one entry of the whole result: if the staged block holds, at this row and lane, the
    features of the result's pixel, the stored entry is the result there. -/
theorem stored_eq_result (x : S8x4x512x56x56.Idx → EReal) (x0 : Vec Ideal S8x1x512x8x56 .f32) (u : Fin 1) (r : Fin 8) (w : Fin 56)
    (b : Fin 4) (h w' : Fin 56)
    (hx : ∀ (n : Fin 8) (k : Fin 512), x0 (ix5 n (0 : Fin 1) k r w) = x (ix5 n b k h w')) :
    stored (F := Ideal) (fun n => View.ld x0 (slab n)) (ix3 u r w) = result x (ix3 b h w') := by
  rw [stored_apply, result_apply]
  refine congrArg meanPairCosine (funext fun n => funext fun k => ?_)
  exact (ld_slab x0 n k r w).trans (hx n k)

section run

variable (m : (ℓ : Loc nD τ sig) → Buf (Elt Ideal) ℓ) (ρ : Dev nD → PrngReg)

/-- The two index maps side by side, decided over the 28 grid points: the input block sits at clip 0, channel 0 and lane 0,
    at the result block's batch entry and row block; the result block sits at lane 0. -/
theorem index_facts : ∀ t : Fin cfg0.N, win0_0.index t (0 : Fin 5) = 0
    ∧ win0_0.index t (1 : Fin 5) = win0_1.index t (0 : Fin 3)
    ∧ win0_0.index t (2 : Fin 5) = 0
    ∧ win0_0.index t (3 : Fin 5) = win0_1.index t (1 : Fin 3)
    ∧ win0_0.index t (4 : Fin 5) = 0
    ∧ win0_1.index t (2 : Fin 3) = 0 :=
  (by decide +kernel : ∀ t : Fin grid0.N, _)

/-- Every batch entry and every block of eight rows is some grid point's. -/
theorem index_onto : ∀ (q0 : Fin 4) (q1 : Fin 7), ∃ t : Fin cfg0.N, win0_1.index t = ![q0.val, q1.val, 0] :=
  (by decide +kernel : ∀ (q0 : Fin 4) (q1 : Fin 7), ∃ t : Fin grid0.N, win0_1.index t = ![q0.val, q1.val, 0])

/-- The features as the region finds them, as a plain array of extended reals. -/
abbrev feats (c : Dev nD) : S8x4x512x56x56.Idx → EReal := V m c main_arg0

/-- What grid point `t` writes back is block `t` of the whole result. -/
theorem flushed_eq (c : Dev nD) (t : Fin cfg0.N) :
    (dats m 0 c).flushed 1 t = ((cfg0.win 1).blk t).view.read (Elt Ideal) (result (feats m c)) := by
  rw [Value.flushed1, out_eq]
  obtain ⟨e0, e1, e2, e3, e4, e5⟩ := index_facts t
  funext j
  obtain ⟨u, r, w, rfl⟩ : ∃ (u : Fin 1) (r : Fin 8) (w : Fin 56), j = ix3 u r w := ⟨j 0, j 1, j 2, eq_ix3 j⟩
  show stored (F := Ideal) (fun n => View.ld (iblk m c 0 t) (slab n)) (ix3 u r w)
    = result (feats m c) (((cfg0.win 1).blk t).view.emb (ix3 u r w))
  have hu : u.val = 0 := by omega
  have hb : win0_1.index t (0 : Fin 3) * 1 + 1 * u.val < 4 := (((cfg0.win 1).blk t).view.emb (ix3 u r w) 0).isLt
  have hh : win0_1.index t (1 : Fin 3) * 8 + 1 * r.val < 56 := (((cfg0.win 1).blk t).view.emb (ix3 u r w) 1).isLt
  have hw : win0_1.index t (2 : Fin 3) * 56 + 1 * w.val < 56 := (((cfg0.win 1).blk t).view.emb (ix3 u r w) 2).isLt
  have hi : ((cfg0.win 1).blk t).view.emb (ix3 u r w)
      = ix3 (⟨win0_1.index t (0 : Fin 3) * 1 + 1 * u.val, hb⟩ : Fin 4) (⟨win0_1.index t (1 : Fin 3) * 8 + 1 * r.val, hh⟩ : Fin 56)
          (⟨win0_1.index t (2 : Fin 3) * 56 + 1 * w.val, hw⟩ : Fin 56) :=
    funext fun a => Fin.ext (by match a with | ⟨0, _⟩ => rfl | ⟨1, _⟩ => rfl | ⟨2, _⟩ => rfl)
  rw [hi]
  refine stored_eq_result (feats m c) (iblk m c 0 t) u r w _ _ _ fun n k => ?_
  show V m c main_arg0 (((cfg0.win 0).blk t).view.emb (ix5 n (0 : Fin 1) k r w)) = V m c main_arg0 _
  refine congrArg (V m c main_arg0) (funext fun a => Fin.ext ?_)
  match a with
  | ⟨0, _⟩ => show win0_0.index t (0 : Fin 5) * 8 + 1 * n.val = n.val; omega
  | ⟨1, _⟩ => show win0_0.index t (1 : Fin 5) * 1 + 1 * 0 = win0_1.index t (0 : Fin 3) * 1 + 1 * u.val; omega
  | ⟨2, _⟩ => show win0_0.index t (2 : Fin 5) * 512 + 1 * k.val = k.val; omega
  | ⟨3, _⟩ => show win0_0.index t (3 : Fin 5) * 8 + 1 * r.val = win0_1.index t (1 : Fin 3) * 8 + 1 * r.val; omega
  | ⟨4, _⟩ => show win0_0.index t (4 : Fin 5) * 56 + 1 * w.val = win0_1.index t (2 : Fin 3) * 56 + 1 * w.val; omega

/-- An index of the result is in grid point `t`'s block iff each coordinate is in the block's range on its axis. -/
theorem mem_blk (t : Fin cfg0.N) (i : S4x56x56.Idx) :
    i ∈ ((cfg0.win 1).blk t).view.set ↔ ∀ a : Fin 3, win0_1.index t a * S1x8x56.size a ≤ (i a).val ∧ (i a).val < win0_1.index t a * S1x8x56.size a + S1x8x56.size a := by
  show i ∈ ((View.whole main_v0).slice (win0_1.rect t)).set ↔ _
  rw [View.set_slice_whole, Rect.mem_set_unit]
  exact Iff.rfl

/-- Every index of the result is in some grid point's block: batch entry `b`, rows `8 q … 8 q + 7` with `q` the row's
    quotient by eight. -/
theorem cover (i : S4x56x56.Idx) : ∃ t : Fin cfg0.N, (cfg0.win 1).flush t = true ∧ i ∈ ((cfg0.win 1).blk t).view.set := by
  have hi0 : (i 0).val < 4 := (i 0).isLt
  have hi1 : (i 1).val < 56 := (i 1).isLt
  have hi2 : (i 2).val < 56 := (i 2).isLt
  obtain ⟨t, ht⟩ := index_onto ⟨(i 0).val, hi0⟩ ⟨(i 1).val / 8, by omega⟩
  have q0 : win0_1.index t (0 : Fin 3) = (i 0).val := congrFun ht 0
  have q1 : win0_1.index t (1 : Fin 3) = (i 1).val / 8 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 8 ≤ (i 1).val ∧ (i 1).val < win0_1.index t (1 : Fin 3) * 8 + 8; omega
  | ⟨2, _⟩ => show win0_1.index t (2 : Fin 3) * 56 ≤ (i 2).val ∧ (i 2).val < win0_1.index t (2 : Fin 3) * 56 + 56; omega

/-- The result array after the run is the whole-array function of the features. -/
theorem final (c : Dev nD) : (dats m 0 c).arrAt 1 cfg0.N = result (feats m c) :=
  (dats m 0 c).arrAt_eq_of_cover 1 (result (feats m c)) (fun t _ => flushed_eq m c t) cover

/-- The kernel's run: it ends with the result array at `result` of the features it was launched with, the features unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end run

end Cert.KernelIdeal.Tiles

end
-- ==== Proof.lean ====
/-
  The mean pairwise cosine similarity of eight clips' feature maps, pixel by pixel: the kernel against its reference.

  Both programs take features `x[n, b, c, h, w]` (eight clips, four batch entries, 512 channels, 56 × 56 pixels). At each
  batch entry and pixel each clip's channel vector is divided by its Euclidean norm, the norm held above a small floor;
  with `u n` the eight scaled vectors the result there is `(‖Σ n, u n‖² − Σ n, ‖u n‖²) / 56`, the mean over the 56
  ordered pairs of distinct clips of their cosine. The reference forms the sums over whole arrays; the kernel walks a
  4 × 7 grid of (batch entry, block of eight rows), gathers the eight scaled slabs and their squared norms one clip at
  a time, and writes one 8 × 56 block per grid point. On the extended reals the two are one function
  (`Cert.PairCosine.result`): the square root, the maximum with the floor, both quotients and the subtraction are the
  same operations on both sides with the same two literals, and a sum gathered term by term from zero is the sum, since
  addition of extended reals is commutative and associative. No finiteness of the input is used.

  The idealized kernel is the kernel's own text read on the extended reals (no rewrite was applied), so the
  idealization claim has nothing to state. The three frame claims are the generated runs.
-/
import proofs.«105444_j15642270892813_1_alg».proof.Defs
import proofs.«105444_j15642270892813_1_alg».proof.Proof.Gen.Kernel
import proofs.«105444_j15642270892813_1_alg».proof.Proof.Gen.Kernel.Skeleton
import proofs.«105444_j15642270892813_1_alg».proof.Proof.Gen.Kernel.Launch
import proofs.«105444_j15642270892813_1_alg».proof.Proof.Gen.Kernel.Points
import proofs.«105444_j15642270892813_1_alg».proof.Proof.Gen.Kernel.Frame
import proofs.«105444_j15642270892813_1_alg».proof.Proof.Gen.KernelIdeal
import proofs.«105444_j15642270892813_1_alg».proof.Proof.Gen.KernelIdeal.Skeleton
import proofs.«105444_j15642270892813_1_alg».proof.Proof.Gen.KernelIdeal.Launch
import proofs.«105444_j15642270892813_1_alg».proof.Proof.Gen.KernelIdeal.Points
import proofs.«105444_j15642270892813_1_alg».proof.Proof.Gen.KernelIdeal.Frame
import proofs.«105444_j15642270892813_1_alg».proof.Proof.Gen.ReferenceIdeal
import proofs.«105444_j15642270892813_1_alg».proof.Proof.Gen.Pre_finite_inputs
import proofs.«105444_j15642270892813_1_alg».proof.Proof.Gen.KernelIdeal.Value
import proofs.«105444_j15642270892813_1_alg».proof.Proof.Gen.ReferenceIdeal.Run
import proofs.«105444_j15642270892813_1_alg».proof.Proof.Gen.ReferenceIdeal.Read
import proofs.«105444_j15642270892813_1_alg».proof.Proof.PairCosine
import proofs.«105444_j15642270892813_1_alg».proof.Proof.RefValue
import proofs.«105444_j15642270892813_1_alg».proof.Proof.Body
import proofs.«105444_j15642270892813_1_alg».proof.Proof.Tiles
import Idealize.ShloMosaic.Adequacy
import Idealize.ShloMosaic.Init

noncomputable section

namespace Cert.Proof

open Idealize.ShloMosaic Idealize.ShloMosaic.TcCoe Idealize.SL.Sem

/-- The kernel as printed runs, and leaves the features as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves the features as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on the features both programs end with the result array at the mean pairwise cosine of
    every pixel's eight clips: the kernel block by block, the reference stage by stage. -/
theorem algebraic : Cert.algebraic_KernelIdeal_ReferenceIdeal := by
  intro m ρ m' ρ' _ hagree
  refine ⟨fun c => Cert.PairCosine.result (m ((c : Thread Cert.KernelIdeal.nD Cert.KernelIdeal.τ).loc Cert.KernelIdeal.main_arg0)),
    Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
